-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S512x80 : Shape := ⟨2, ![512, 80]⟩
abbrev S80 : Shape := ⟨1, ![80]⟩
abbrev S1x512x64 : Shape := ⟨3, ![1, 512, 64]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S512x80 : S_.BroadcastsInDim S512x80 (![] : Fin 0 → Fin S512x80.rank)
  reducesTo_S512x80_S_d0_1 : S512x80.ReducesTo [0, 1] S_
  bcast_S_S80 : S_.BroadcastsInDim S80 (![] : Fin 0 → Fin S80.rank)
  reducesTo_S80_S_d0 : S80.ReducesTo [0] S_
  bcast_S_S1x512x64 : S_.BroadcastsInDim S1x512x64 (![] : Fin 0 → Fin S1x512x64.rank)
  reducesTo_S1x512x64_S_d0_1_2 : S1x512x64.ReducesTo [0, 1, 2] S_

variable [Facts]

def fn_part1 {F : FTy → Type} [FloatOps F] (main_arg4 : FVec F S80 .f32) (main_arg5 : FVec F S80 .f32) (main_arg6 : FVec F S1x512x64 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  let main_v24 : FVec F S80 .f32 := Host.absf main_arg5
  let main_cst_8 : FVec F S_ .f32 := constant S_ .f32 0x7F800000#32
  let main_v25 : FVec F S80 .f32 := broadcastInDim S80 ![] bcast_S_S80 main_cst_8
  let main_v26 : IVec S80 1 := cmpf .olt main_v24 main_v25
  let main_c_9 : IVec S_ 1 := constantI S_ 1 1#1
  let main_v27 : IVec S_ 1 := (fun x v => Host.reduce IntOp.andi x v reducesTo_S80_S_d0 h_S_) main_v26 main_c_9
  let main_v28 : IVec S_ 1 := andi main_v23 main_v27
  let main_v29 : FVec F S1x512x64 .f32 := Host.absf main_arg6
  let main_cst_10 : FVec F S_ .f32 := constant S_ .f32 0x7F800000#32
  let main_v30 : FVec F S1x512x64 .f32 := broadcastInDim S1x512x64 ![] bcast_S_S1x512x64 main_cst_10
  let main_v31 : IVec S1x512x64 1 := cmpf .olt main_v29 main_v30
  let main_c_11 : IVec S_ 1 := constantI S_ 1 1#1
  let main_v32 : IVec S_ 1 := (fun x v => Host.reduce IntOp.andi x v reducesTo_S1x512x64_S_d0_1_2 h_S_) main_v31 main_c_11
  let main_v33 : IVec S_ 1 := andi main_v28 main_v32
  main_v33

def fn {F : FTy → Type} [FloatOps F] (main_arg0 : FVec F S64x1024x512 .f32) (main_arg1 : FVec F S512x80 .f32) (main_arg2 : FVec F S80 .f32) (main_arg3 : FVec F S80 .f32) (main_arg4 : FVec F S80 .f32) (main_arg5 : FVec F S80 .f32) (main_arg6 : FVec F S1x512x64 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S512x80 .f32 := Host.absf main_arg1
  let main_cst_0 : FVec F S_ .f32 := constant S_ .f32 0x7F800000#32
  let main_v5 : FVec F S512x80 .f32 := broadcastInDim S512x80 ![] bcast_S_S512x80 main_cst_0
  let main_v6 : IVec S512x80 1 := cmpf .olt main_v4 main_v5
  let main_c_1 : IVec S_ 1 := constantI S_ 1 1#1
  let main_v7 : IVec S_ 1 := (fun x v => Host.reduce IntOp.andi x v reducesTo_S512x80_S_d0_1 h_S_) main_v6 main_c_1
  let main_v8 : IVec S_ 1 := andi main_v3 main_v7
  let main_v9 : FVec F S80 .f32 := Host.absf main_arg2
  let main_cst_2 : FVec F S_ .f32 := constant S_ .f32 0x7F800000#32
  let main_v10 : FVec F S80 .f32 := broadcastInDim S80 ![] bcast_S_S80 main_cst_2
  let main_v11 : IVec S80 1 := cmpf .olt main_v9 main_v10
  let main_c_3 : IVec S_ 1 := constantI S_ 1 1#1
  let main_v12 : IVec S_ 1 := (fun x v => Host.reduce IntOp.andi x v reducesTo_S80_S_d0 h_S_) main_v11 main_c_3
  let main_v13 : IVec S_ 1 := andi main_v8 main_v12
  let main_v14 : FVec F S80 .f32 := Host.absf main_arg3
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg4 main_arg5 main_arg6 main_v13 main_v16
-- ==== Kernel.lean ====
abbrev S64x1024x512 : Shape := ⟨3, ![64, 1024, 512]⟩
abbrev S512x80 : Shape := ⟨2, ![512, 80]⟩
abbrev S80 : Shape := ⟨1, ![80]⟩
abbrev S1x512x64 : Shape := ⟨3, ![1, 512, 64]⟩
abbrev S_ : Shape := ⟨0, ![]⟩
abbrev S512x64 : Shape := ⟨2, ![512, 64]⟩
abbrev S64 : Shape := ⟨1, ![64]⟩
abbrev S1x64 : Shape := ⟨2, ![1, 64]⟩
abbrev S64x512x64 : Shape := ⟨3, ![64, 512, 64]⟩
abbrev S1x1024x512 : Shape := ⟨3, ![1, 1024, 512]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S1 : Shape := ⟨1, ![1]⟩
abbrev S1x1x1 : Shape := ⟨3, ![1, 1, 1]⟩
abbrev S1x1 : Shape := ⟨2, ![1, 1]⟩
abbrev S64x32768 : Shape := ⟨2, ![64, 32768]⟩

abbrev nBuf : Space → Nat
  | .hbm => 20
  | .vmem => 6
  | .smem => 0
  | _ => 0

abbrev bufTy : (tb : Table) → Fin (tcTables nBuf tb) → BufTy
  | .hbm, ⟨0, _⟩ => ⟨S64x1024x512, .f32⟩
  | .hbm, ⟨1, _⟩ => ⟨S512x80, .f32⟩
  | .hbm, ⟨2, _⟩ => ⟨S80, .f32⟩
  | .hbm, ⟨3, _⟩ => ⟨S80, .f32⟩
  | .hbm, ⟨4, _⟩ => ⟨S80, .f32⟩
  | .hbm, ⟨5, _⟩ => ⟨S80, .f32⟩
  | .hbm, ⟨6, _⟩ => ⟨S1x512x64, .f32⟩
  | .hbm, ⟨7, _⟩ => ⟨S_, .f32⟩
  | .hbm, ⟨8, _⟩ => ⟨S80, .f32⟩
  | .hbm, ⟨9, _⟩ => ⟨S80, .f32⟩
  | .hbm, ⟨10, _⟩ => ⟨S80, .f32⟩
  | .hbm, ⟨11, _⟩ => ⟨S80, .f32⟩
  | .hbm, ⟨12, _⟩ => ⟨S512x64, .f32⟩
  | .hbm, ⟨13, _⟩ => ⟨S64, .f32⟩
  | .hbm, ⟨14, _⟩ => ⟨S1x64, .f32⟩
  | .hbm, ⟨15, _⟩ => ⟨S512x64, .f32⟩
  | .hbm, ⟨16, _⟩ => ⟨S512x64, .f32⟩
  | .hbm, ⟨17, _⟩ => ⟨S512x64, .f32⟩
  | .hbm, ⟨18, _⟩ => ⟨S64x512x64, .f32⟩
  | .hbm, ⟨19, _⟩ => ⟨S64x32768, .f32⟩
  | .local _ .vmem, ⟨0, _⟩ => ⟨S1x1024x512, .f32⟩
  | .local _ .vmem, ⟨1, _⟩ => ⟨S1x1024x512, .f32⟩
  | .local _ .vmem, ⟨2, _⟩ => ⟨S512x64, .f32⟩
  | .local _ .vmem, ⟨3, _⟩ => ⟨S512x64, .f32⟩
  | .local _ .vmem, ⟨4, _⟩ => ⟨S1x512x64, .f32⟩
  | .local _ .vmem, ⟨5, _⟩ => ⟨S1x512x64, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S80 : S_.BroadcastsInDim S80 (![] : Fin 0 → Fin S80.rank)
  slices_S512x80_S512x64_0_0 : S512x80.Slices ![0, 0] S512x64
  slices_S80_S64_0 : S80.Slices ![0] S64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  shapeCasts_S1x512x64_S512x64 : S1x512x64.ShapeCasts S512x64
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  reduces_S1024x64_S1024 : S1024x64.Reduces [1] S1024
  shapeCasts_S1024_S1024x1 : S1024.ShapeCasts S1024x1
  broadcasts_S1024x1_S1024x64 : S1024x1.Broadcasts S1024x64
  reduces_S1024x64_S64 : S1024x64.Reduces [0] S64
  shapeCasts_S64_S1x64 : S64.ShapeCasts S1x64
  broadcasts_S1x64_S512x64 : S1x64.Broadcasts S512x64
  reduces_S512x64_S64 : S512x64.Reduces [0] S64
  shapeCasts_S512x64_S1x512x64 : S512x64.ShapeCasts S1x512x64
  reduces_S1x512x64_S1 : S1x512x64.Reduces [1, 2] S1
  shapeCasts_S1_S1x1x1 : S1.ShapeCasts S1x1x1
  inpos_S1x1x1_p0_0_0 : ∀ a, (![0, 0, 0] : Fin 3 → Nat) a < S1x1x1.size a
  broadcasts_S1x1_S512x64 : S1x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S64x512x64_S64x32768 : S64x512x64.ShapeCasts S64x32768
  dot_S1024x512_S512x64_S1024x64_1_0_0_1_n_n_wf : DotDims.WF S1024x512 S512x64 S1024x64 [1] [0] [0] [1] [] []
  dot_S1024x512_S1024x64_S512x64_0_0_1_1_n_n_wf : DotDims.WF S1024x512 S1024x64 S512x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S64x1024x512.size a
  hwx0_0 : ∀ i : grid0.Coords, EltTy.bits .f32 = 32 ∨ (Rect.block (s := S64x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x512x64.size a
  hwx0_3 : ∀ i : grid0.Coords, EltTy.bits .f32 = 32 ∨ (Rect.block (s := S64x512x64) S1x512x64.size (cc0_transform_3 i) (hinb0_3 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x512_S1024x64_S512x64_0_0_1_1_n_n : DotDims S1024x512 S1024x64 S512x64 where
  lhsContracting := [0]
  rhsContracting := [0]
  lhsNonContracting := [1]
  rhsNonContracting := [1]
  lhsBatch := []
  rhsBatch := []
  wf := dot_S1024x512_S1024x64_S512x64_0_0_1_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x512 : Shape := ⟨3, ![64, 1024, 512]⟩
abbrev S512x80 : Shape := ⟨2, ![512, 80]⟩
abbrev S80 : Shape := ⟨1, ![80]⟩
abbrev S1x512x64 : Shape := ⟨3, ![1, 512, 64]⟩
abbrev S_ : Shape := ⟨0, ![]⟩
abbrev S65536x512 : Shape := ⟨2, ![65536, 512]⟩
abbrev S1x80 : Shape := ⟨2, ![1, 80]⟩
abbrev S65536x80 : Shape := ⟨2, ![65536, 80]⟩
abbrev S65536x64 : Shape := ⟨2, ![65536, 64]⟩
abbrev S65536 : Shape := ⟨1, ![65536]⟩
abbrev S65536x1 : Shape := ⟨2, ![65536, 1]⟩
abbrev S64x1024x64 : Shape := ⟨3, ![64, 1024, 64]⟩
abbrev S64x64 : Shape := ⟨2, ![64, 64]⟩
abbrev S64x512x64 : Shape := ⟨3, ![64, 512, 64]⟩
abbrev S64x1x64 : Shape := ⟨3, ![64, 1, 64]⟩
abbrev S512x64 : Shape := ⟨2, ![512, 64]⟩
abbrev S64x32768 : Shape := ⟨2, ![64, 32768]⟩
abbrev S64 : Shape := ⟨1, ![64]⟩
abbrev S64x1 : Shape := ⟨2, ![64, 1]⟩

abbrev nBuf : Space → Nat
  | .hbm => 64
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S512x80, .f32⟩
  | .hbm, ⟨2, _⟩ => ⟨S80, .f32⟩
  | .hbm, ⟨3, _⟩ => ⟨S80, .f32⟩
  | .hbm, ⟨4, _⟩ => ⟨S80, .f32⟩
  | .hbm, ⟨5, _⟩ => ⟨S80, .f32⟩
  | .hbm, ⟨6, _⟩ => ⟨S1x512x64, .f32⟩
  | .hbm, ⟨7, _⟩ => ⟨S_, .f32⟩
  | .hbm, ⟨8, _⟩ => ⟨S80, .f32⟩
  | .hbm, ⟨9, _⟩ => ⟨S80, .f32⟩
  | .hbm, ⟨10, _⟩ => ⟨S80, .f32⟩
  | .hbm, ⟨11, _⟩ => ⟨S80, .f32⟩
  | .hbm, ⟨12, _⟩ => ⟨S65536x512, .f32⟩
  | .hbm, ⟨13, _⟩ => ⟨S1x80, .f32⟩
  | .hbm, ⟨14, _⟩ => ⟨S512x80, .f32⟩
  | .hbm, ⟨15, _⟩ => ⟨S512x80, .f32⟩
  | .hbm, ⟨16, _⟩ => ⟨S65536x80, .f32⟩
  | .hbm, ⟨17, _⟩ => ⟨S65536x64, .f32⟩
  | .hbm, ⟨18, _⟩ => ⟨S_, .f32⟩
  | .hbm, ⟨19, _⟩ => ⟨S65536, .f32⟩
  | .hbm, ⟨20, _⟩ => ⟨S_, .f32⟩
  | .hbm, ⟨21, _⟩ => ⟨S65536, .f32⟩
  | .hbm, ⟨22, _⟩ => ⟨S65536, .f32⟩
  | .hbm, ⟨23, _⟩ => ⟨S65536x1, .f32⟩
  | .hbm, ⟨24, _⟩ => ⟨S65536x64, .f32⟩
  | .hbm, ⟨25, _⟩ => ⟨S65536x64, .f32⟩
  | .hbm, ⟨26, _⟩ => ⟨S65536x64, .f32⟩
  | .hbm, ⟨27, _⟩ => ⟨S_, .f32⟩
  | .hbm, ⟨28, _⟩ => ⟨S65536, .f32⟩
  | .hbm, ⟨29, _⟩ => ⟨S65536x1, .f32⟩
  | .hbm, ⟨30, _⟩ => ⟨S65536x64, .f32⟩
  | .hbm, ⟨31, _⟩ => ⟨S65536x64, .f32⟩
  | .hbm, ⟨32, _⟩ => ⟨S64x1024x64, .f32⟩
  | .hbm, ⟨33, _⟩ => ⟨S_, .f32⟩
  | .hbm, ⟨34, _⟩ => ⟨S64x64, .f32⟩
  | .hbm, ⟨35, _⟩ => ⟨S64x512x64, .f32⟩
  | .hbm, ⟨36, _⟩ => ⟨S64x1x64, .f32⟩
  | .hbm, ⟨37, _⟩ => ⟨S512x64, .f32⟩
  | .hbm, ⟨38, _⟩ => ⟨S1x512x64, .f32⟩
  | .hbm, ⟨39, _⟩ => ⟨S64x512x64, .f32⟩
  | .hbm, ⟨40, _⟩ => ⟨S64x512x64, .f32⟩
  | .hbm, ⟨41, _⟩ => ⟨S64x512x64, .f32⟩
  | .hbm, ⟨42, _⟩ => ⟨S64x512x64, .f32⟩
  | .hbm, ⟨43, _⟩ => ⟨S64x512x64, .f32⟩
  | .hbm, ⟨44, _⟩ => ⟨S_, .f32⟩
  | .hbm, ⟨45, _⟩ => ⟨S64x64, .f32⟩
  | .hbm, ⟨46, _⟩ => ⟨S64x1x64, .f32⟩
  | .hbm, ⟨47, _⟩ => ⟨S64x1x64, .f32⟩
  | .hbm, ⟨48, _⟩ => ⟨S_, .f32⟩
  | .hbm, ⟨49, _⟩ => ⟨S64x1x64, .f32⟩
  | .hbm, ⟨50, _⟩ => ⟨S64x1x64, .f32⟩
  | .hbm, ⟨51, _⟩ => ⟨S64x512x64, .f32⟩
  | .hbm, ⟨52, _⟩ => ⟨S64x512x64, .f32⟩
  | .hbm, ⟨53, _⟩ => ⟨S64x32768, .f32⟩
  | .hbm, ⟨54, _⟩ => ⟨S64x32768, .f32⟩
  | .hbm, ⟨55, _⟩ => ⟨S_, .f32⟩
  | .hbm, ⟨56, _⟩ => ⟨S64, .f32⟩
  | .hbm, ⟨57, _⟩ => ⟨S64x1, .f32⟩
  | .hbm, ⟨58, _⟩ => ⟨S64x1, .f32⟩
  | .hbm, ⟨59, _⟩ => ⟨S_, .f32⟩
  | .hbm, ⟨60, _⟩ => ⟨S64x1, .f32⟩
  | .hbm, ⟨61, _⟩ => ⟨S64x1, .f32⟩
  | .hbm, ⟨62, _⟩ => ⟨S64x32768, .f32⟩
  | .hbm, ⟨63, _⟩ => ⟨S64x32768, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  bcast_S_S80 : S_.BroadcastsInDim S80 (![] : Fin 0 → Fin S80.rank)
  shapeCasts_S64x1024x512_S65536x512 : S64x1024x512.ShapeCasts S65536x512
  bcast_S80_S1x80_1 : S80.BroadcastsInDim S1x80 (![1] : Fin 1 → Fin S1x80.rank)
  bcast_S1x80_S512x80_0_1 : S1x80.BroadcastsInDim S512x80 (![0, 1] : Fin 2 → Fin S512x80.rank)
  slices_S65536x80_S65536x64_0_0 : S65536x80.Slices ![0, 0] S65536x64
  reducesTo_S65536x64_S65536_d1 : S65536x64.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x64_S64x1024x64 : S65536x64.ShapeCasts S64x1024x64
  reducesTo_S64x1024x64_S64x64_d1 : S64x1024x64.ReducesTo [1] S64x64
  bcast_S64x64_S64x1x64_0_2 : S64x64.BroadcastsInDim S64x1x64 (![0, 2] : Fin 2 → Fin S64x1x64.rank)
  shapeCasts_S1x512x64_S512x64 : S1x512x64.ShapeCasts S512x64
  bcast_S512x64_S1x512x64_1_2 : S512x64.BroadcastsInDim S1x512x64 (![1, 2] : Fin 2 → Fin S1x512x64.rank)
  bcast_S64x1x64_S64x512x64_0_1_2 : S64x1x64.BroadcastsInDim S64x512x64 (![0, 1, 2] : Fin 3 → Fin S64x512x64.rank)
  bcast_S1x512x64_S64x512x64_0_1_2 : S1x512x64.BroadcastsInDim S64x512x64 (![0, 1, 2] : Fin 3 → Fin S64x512x64.rank)
  reducesTo_S64x512x64_S64x64_d1 : S64x512x64.ReducesTo [1] S64x64
  bcast_S_S64x1x64 : S_.BroadcastsInDim S64x1x64 (![] : Fin 0 → Fin S64x1x64.rank)
  shapeCasts_S64x512x64_S64x32768 : S64x512x64.ShapeCasts S64x32768
  reducesTo_S64x32768_S64_d1 : S64x32768.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x32768_0_1 : S64x1.BroadcastsInDim S64x32768 (![0, 1] : Fin 2 → Fin S64x32768.rank)
  dot_S65536x512_S512x80_S65536x80_1_0_0_1_n_n_wf : DotDims.WF S65536x512 S512x80 S65536x80 [1] [0] [0] [1] [] []
  dot_S64x1024x512_S64x1024x64_S64x512x64_1_1_2_2_0_0_wf : DotDims.WF S64x1024x512 S64x1024x64 S64x512x64 [1] [1] [2] [2] [0] [0]

variable [Facts₀]

def dot_S65536x512_S512x80_S65536x80_1_0_0_1_n_n : DotDims S65536x512 S512x80 S65536x80 where
  lhsContracting := [1]
  rhsContracting := [0]
  lhsNonContracting := [0]
  rhsNonContracting := [1]
  lhsBatch := []
  rhsBatch := []
  wf := dot_S65536x512_S512x80_S65536x80_1_0_0_1_n_n_wf
def dot_S64x1024x512_S64x1024x64_S64x512x64_1_1_2_2_0_0 : DotDims S64x1024x512 S64x1024x64 S64x512x64 where
  lhsContracting := [1]
  rhsContracting := [1]
  lhsNonContracting := [2]
  rhsNonContracting := [2]
  lhsBatch := [0]
  rhsBatch := [0]
  wf := dot_S64x1024x512_S64x1024x64_S64x512x64_1_1_2_2_0_0_wf

class Facts : Prop extends Facts₀ where

variable [Facts]
-- ==== Proof.VladSpec.lean ====
/-
  The per-batch mathematics, on the extended reals, over plain index functions.

  One batch holds N descriptors of dimension D (`X n d`), soft-assigned to K clusters through the effective cluster
  matrix `E d k`; `C d k` is the centre matrix. Row by row the logits `∑_d X n d · E d k` are turned into a softmax over
  the K clusters (the row maximum is subtracted before the exponential); the residual matrix is
  `∑_n X n d · a n k − (∑_n a n k) · C d k`; each of its K columns is divided by its Euclidean norm, floored at a small
  word, and the whole D × K matrix is then divided by its Euclidean norm, floored at the same word.
  The starting word of the maximum and the floor are kept as words: both programs print the same ones, and nothing
  here depends on their values.
-/
import Idealize.ShloMosaic.PureOps.Ideal

noncomputable section

namespace Cert.VladSpec

open Idealize.ShloMosaic

variable {N D K : ℕ}

/-- The word the row maximum starts from. -/
abbrev maxStart : EReal := Ideal.ofBits .f32 0xFF800000#32
/-- The word both norms are floored at. -/
abbrev normFloor : EReal := Ideal.ofBits .f32 0x2B8CBCCC#32

variable (X : Fin N → Fin D → EReal) (E C : Fin D → Fin K → EReal)

/-- The logit of descriptor `n` for cluster `k`. -/
def logit (n : Fin N) (k : Fin K) : EReal := ∑ d : Fin D, X n d * E d k

/-- The maximum of a descriptor's logits. -/
def rowMax (n : Fin N) : EReal := (Finset.univ : Finset (Fin K)).fold max maxStart (fun k => logit X E n k)

/-- The shifted exponential. -/
def expo (n : Fin N) (k : Fin K) : EReal := Ideal.exp (logit X E n k - rowMax X E n)

/-- The soft assignment: the exponentials of a row divided by their sum. -/
def assign (n : Fin N) (k : Fin K) : EReal := Ideal.div (expo X E n k) (∑ k' : Fin K, expo X E n k')

/-- The mass assigned to cluster `k`. -/
def mass (k : Fin K) : EReal := ∑ n : Fin N, assign X E n k

/-- The residual of dimension `d` for cluster `k`. -/
def resid (d : Fin D) (k : Fin K) : EReal := (∑ n : Fin N, X n d * assign X E n k) - mass X E k * C d k

/-- The floored Euclidean norm of column `k` of the residuals. -/
def colNorm (k : Fin K) : EReal := max (Ideal.sqrt (∑ d : Fin D, resid X E C d k * resid X E C d k)) normFloor

/-- The residuals, each column divided by its norm. -/
def intra (d : Fin D) (k : Fin K) : EReal := Ideal.div (resid X E C d k) (colNorm X E C k)

/-- The floored Euclidean norm of the whole normalized matrix. -/
def fullNorm : EReal := max (Ideal.sqrt (∑ d : Fin D, ∑ k : Fin K, intra X E C d k * intra X E C d k)) normFloor

/-- The result for one batch. -/
def vlad (d : Fin D) (k : Fin K) : EReal := Ideal.div (intra X E C d k) (fullNorm X E C)

/-! ## The effective cluster matrix

  Both programs first scale the cluster matrix: column `j` of the `M`-column matrix `Cl` is multiplied by
  `w j / sqrt (v j + ε)`, and only the first `K` columns are used afterwards. -/

variable {M : ℕ}

/-- The scale of column `j`: the weight over the square root of the variance plus the stabilizing word. -/
def scale (w v : Fin M → EReal) (j : Fin M) : EReal :=
  Ideal.div (w j) (Ideal.sqrt (v j + Ideal.ofBits .f32 0x3727C5AC#32))

/-- The first `K` columns of the cluster matrix, each multiplied by its scale. -/
def effClusters (hK : K ≤ M) (Cl : Fin D → Fin M → EReal) (w v : Fin M → EReal) (d : Fin D) (k : Fin K) : EReal :=
  Cl d (Fin.castLE hK k) * scale w v (Fin.castLE hK k)

end Cert.VladSpec

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KernelBlock.lean ====
/-
  One grid point of the kernel: what the body stores in the output block, entry by entry, is the per-batch result of
  the point's three input blocks.
-/
import proofs.«177322_j36215164240269_1_alg».proof.Proof.Gen.KernelIdeal.Skeleton
import proofs.«177322_j36215164240269_1_alg».proof.Proof.VladSpec
import proofs.«177322_j36215164240269_1_alg».proof.Proof.LibRowwise
import Idealize.ShloMosaic.Lib.ValueLayout

noncomputable section

namespace Cert.KernelBlock

open Idealize.ShloMosaic Idealize.ShloMosaic.ValueIdx Cert.KernelIdeal Cert.KernelIdeal.Gen Cert.VladSpec

/-! ## The body's values, one definition per stage -/

/-- The descriptor block as a 1024 × 512 matrix. -/
def descr (x0 : Vec Ideal S1x1024x512 .f32) : FVec Ideal S1024x512 .f32 :=
  shapeCast S1024x512 x0 shapeCasts_S1x1024x512_S1024x512

/-- The effective clusters block (a cast to its own shape). -/
def clus (x1 : Vec Ideal S512x64 .f32) : FVec Ideal S512x64 .f32 := shapeCast S512x64 x1 shapeCasts_S512x64_S512x64

/-- The logits: descriptors times effective clusters. -/
def logits (x0 : Vec Ideal S1x1024x512 .f32) (x1 : Vec Ideal S512x64 .f32) : FVec Ideal S1024x64 .f32 :=
  matmul dot_S1024x512_S512x64_S1024x64_1_0_0_1_n_n none (descr x0) (clus x1) (constant S1024x64 .f32 0x00000000#32)

/-- The maximum of each row of logits. -/
def rowMaxV (x0 : Vec Ideal S1x1024x512 .f32) (x1 : Vec Ideal S512x64 .f32) : FVec Ideal S1024 .f32 :=
  multiReduction .maximumf [1] S1024 (logits x0 x1) 0xFF800000#32 reduces_S1024x64_S1024 (.inl rfl) rfl

/-- The row maxima spread along the lanes. -/
def rowMaxB (x0 : Vec Ideal S1x1024x512 .f32) (x1 : Vec Ideal S512x64 .f32) : FVec Ideal S1024x64 .f32 :=
  broadcastTo S1024x64 (shapeCast S1024x1 (rowMaxV x0 x1) shapeCasts_S1024_S1024x1) broadcasts_S1024x1_S1024x64

/-- The shifted exponentials. -/
def expos (x0 : Vec Ideal S1x1024x512 .f32) (x1 : Vec Ideal S512x64 .f32) : FVec Ideal S1024x64 .f32 :=
  exp (subf (logits x0 x1) (rowMaxB x0 x1))

/-- The sum of each row of exponentials. -/
def expSum (x0 : Vec Ideal S1x1024x512 .f32) (x1 : Vec Ideal S512x64 .f32) : FVec Ideal S1024 .f32 :=
  multiReduction .add [1] S1024 (expos x0 x1) 0x00000000#32 reduces_S1024x64_S1024 (.inl rfl) rfl

/-- The row sums spread along the lanes. -/
def expSumB (x0 : Vec Ideal S1x1024x512 .f32) (x1 : Vec Ideal S512x64 .f32) : FVec Ideal S1024x64 .f32 :=
  broadcastTo S1024x64 (shapeCast S1024x1 (expSum x0 x1) shapeCasts_S1024_S1024x1) broadcasts_S1024x1_S1024x64

/-- The soft assignment. -/
def assignV (x0 : Vec Ideal S1x1024x512 .f32) (x1 : Vec Ideal S512x64 .f32) : FVec Ideal S1024x64 .f32 :=
  divf (expos x0 x1) (expSumB x0 x1)

/-- The mass of each cluster: the column sums of the assignment. -/
def massV (x0 : Vec Ideal S1x1024x512 .f32) (x1 : Vec Ideal S512x64 .f32) : FVec Ideal S64 .f32 :=
  multiReduction .add [0] S64 (assignV x0 x1) 0x00000000#32 reduces_S1024x64_S64 (.inl rfl) rfl

/-- The masses as one row, spread over the 512 dimensions. -/
def massB (x0 : Vec Ideal S1x1024x512 .f32) (x1 : Vec Ideal S512x64 .f32) : FVec Ideal S512x64 .f32 :=
  broadcastTo S512x64 (shapeCast S1x64 (massV x0 x1) shapeCasts_S64_S1x64) broadcasts_S1x64_S512x64

/-- Descriptors transposed times assignment. -/
def weighted (x0 : Vec Ideal S1x1024x512 .f32) (x1 : Vec Ideal S512x64 .f32) : FVec Ideal S512x64 .f32 :=
  matmul dot_S1024x512_S1024x64_S512x64_0_0_1_1_n_n none (descr x0) (assignV x0 x1) (constant S512x64 .f32 0x00000000#32)

/-- The residuals. -/
def residV (x0 : Vec Ideal S1x1024x512 .f32) (x1 x2 : Vec Ideal S512x64 .f32) : FVec Ideal S512x64 .f32 :=
  subf (weighted x0 x1) (mulf (massB x0 x1) (clus x2))

/-- The sum of squares of each column of residuals. -/
def colSq (x0 : Vec Ideal S1x1024x512 .f32) (x1 x2 : Vec Ideal S512x64 .f32) : FVec Ideal S64 .f32 :=
  multiReduction .add [0] S64 (mulf (residV x0 x1 x2) (residV x0 x1 x2)) 0x00000000#32 reduces_S512x64_S64 (.inl rfl) rfl

/-- The floored column norms, as one row. -/
def colNormV (x0 : Vec Ideal S1x1024x512 .f32) (x1 x2 : Vec Ideal S512x64 .f32) : FVec Ideal S1x64 .f32 :=
  maximumf (sqrt (shapeCast S1x64 (colSq x0 x1 x2) shapeCasts_S64_S1x64))
    (broadcast S1x64 (Scalar.ofBits (F := Ideal) .f32 0x2B8CBCCC#32))

/-- The residuals, each column divided by its norm. -/
def intraV (x0 : Vec Ideal S1x1024x512 .f32) (x1 x2 : Vec Ideal S512x64 .f32) : FVec Ideal S512x64 .f32 :=
  divf (residV x0 x1 x2) (broadcastTo S512x64 (colNormV x0 x1 x2) broadcasts_S1x64_S512x64)

/-- The sum of squares of the whole normalized matrix, as a one-element vector. -/
def totSq (x0 : Vec Ideal S1x1024x512 .f32) (x1 x2 : Vec Ideal S512x64 .f32) : FVec Ideal S1 .f32 :=
  multiReduction .add [1, 2] S1 (shapeCast S1x512x64 (mulf (intraV x0 x1 x2) (intraV x0 x1 x2)) shapeCasts_S512x64_S1x512x64)
    0x00000000#32 reduces_S1x512x64_S1 (.inl rfl) rfl

/-- That sum as a scalar. -/
def totSqS (x0 : Vec Ideal S1x1024x512 .f32) (x1 x2 : Vec Ideal S512x64 .f32) : Ideal .f32 :=
  extractAt ![0, 0, 0] (shapeCast S1x1x1 (totSq x0 x1 x2) shapeCasts_S1_S1x1x1) inpos_S1x1x1_p0_0_0

/-- The floored norm of the whole matrix, as a 1 × 1 vector. -/
def fullNormV (x0 : Vec Ideal S1x1024x512 .f32) (x1 x2 : Vec Ideal S512x64 .f32) : FVec Ideal S1x1 .f32 :=
  maximumf (sqrt (broadcast S1x1 (totSqS x0 x1 x2))) (broadcast S1x1 (Scalar.ofBits (F := Ideal) .f32 0x2B8CBCCC#32))

/-- The result: the normalized matrix divided by its norm. -/
def resultV (x0 : Vec Ideal S1x1024x512 .f32) (x1 x2 : Vec Ideal S512x64 .f32) : FVec Ideal S512x64 .f32 :=
  divf (intraV x0 x1 x2) (broadcastTo S512x64 (fullNormV x0 x1 x2) broadcasts_S1x1_S512x64)

/-- The body's arithmetic is this chain. -/
theorem pay2_eq (x0 : Vec Ideal S1x1024x512 .f32) (x1 x2 : Vec Ideal S512x64 .f32) :
    k0_pay2 (F := Ideal) x0 x1 x2 = resultV x0 x1 x2 := rfl

/-! ## Each stage read at explicit coordinates -/

theorem descr_apply (x0 : Vec Ideal S1x1024x512 .f32) (n : Fin 1024) (d : Fin 512) :
    descr x0 (ix2 n d) = x0 (ix3 (0 : Fin 1) n d) :=
  shapeCast_1ab_ab_apply x0 shapeCasts_S1x1024x512_S1024x512 n d

theorem clus_eq (x1 : Vec Ideal S512x64 .f32) : clus x1 = x1 := shapeCast_self x1 _

/-- A logit is the sum over the 512 dimensions. -/
theorem logits_apply (x0 : Vec Ideal S1x1024x512 .f32) (x1 : Vec Ideal S512x64 .f32) (n : Fin 1024) (k : Fin 64) :
    logits x0 x1 (ix2 n k) = ∑ d : Fin 512, descr x0 (ix2 n d) * clus x1 (ix2 d k) := by
  unfold logits
  rw [show dot_S1024x512_S512x64_S1024x64_1_0_0_1_n_n = DotDims.plain 1024 512 64 from
    Cert.Lib.Rowwise.eq_plain _ rfl rfl rfl rfl rfl rfl]
  exact Cert.Lib.Rowwise.plain_matmul_zero_apply none (descr x0) (clus x1) n k

theorem rowMaxV_apply (x0 : Vec Ideal S1x1024x512 .f32) (x1 : Vec Ideal S512x64 .f32) (n : Fin 1024) :
    rowMaxV x0 x1 (ix1 n) = (Finset.univ : Finset (Fin 64)).fold max maxStart (fun k => logits x0 x1 (ix2 n k)) :=
  Cert.Lib.Rowwise.laneMax_apply (logits x0 x1) _ reduces_S1024x64_S1024 (.inl rfl) rfl n

theorem rowMaxB_apply (x0 : Vec Ideal S1x1024x512 .f32) (x1 : Vec Ideal S512x64 .f32) (n : Fin 1024) (k : Fin 64) :
    rowMaxB x0 x1 (ix2 n k) = rowMaxV x0 x1 (ix1 n) :=
  (Cert.Lib.Rowwise.columnBroadcast_apply _ broadcasts_S1024x1_S1024x64 (by decide) n k).trans
    (Cert.Lib.Rowwise.column_apply _ shapeCasts_S1024_S1024x1 n 0)

theorem expos_apply (x0 : Vec Ideal S1x1024x512 .f32) (x1 : Vec Ideal S512x64 .f32) (n : Fin 1024) (k : Fin 64) :
    expos x0 x1 (ix2 n k) = Ideal.exp (logits x0 x1 (ix2 n k) - rowMaxV x0 x1 (ix1 n)) := by
  show Ideal.exp (logits x0 x1 (ix2 n k) - rowMaxB x0 x1 (ix2 n k)) = _
  rw [rowMaxB_apply]

theorem expSum_apply (x0 : Vec Ideal S1x1024x512 .f32) (x1 : Vec Ideal S512x64 .f32) (n : Fin 1024) :
    expSum x0 x1 (ix1 n) = ∑ k : Fin 64, expos x0 x1 (ix2 n k) :=
  Cert.Lib.Rowwise.laneSum_apply (expos x0 x1) _ reduces_S1024x64_S1024 (.inl rfl) rfl n

theorem expSumB_apply (x0 : Vec Ideal S1x1024x512 .f32) (x1 : Vec Ideal S512x64 .f32) (n : Fin 1024) (k : Fin 64) :
    expSumB x0 x1 (ix2 n k) = expSum x0 x1 (ix1 n) :=
  (Cert.Lib.Rowwise.columnBroadcast_apply _ broadcasts_S1024x1_S1024x64 (by decide) n k).trans
    (Cert.Lib.Rowwise.column_apply _ shapeCasts_S1024_S1024x1 n 0)

theorem assignV_apply (x0 : Vec Ideal S1x1024x512 .f32) (x1 : Vec Ideal S512x64 .f32) (n : Fin 1024) (k : Fin 64) :
    assignV x0 x1 (ix2 n k) = Ideal.div (expos x0 x1 (ix2 n k)) (expSum x0 x1 (ix1 n)) := by
  show Ideal.div (expos x0 x1 (ix2 n k)) (expSumB x0 x1 (ix2 n k)) = _
  rw [expSumB_apply]

/-! ### Sums down the columns -/

/-- Column `k` with row `n` put back is `(n, k)`. -/
theorem lift_col {A B : Nat} (h : (⟨2, ![A, B]⟩ : Shape).Reduces [0] ⟨1, ![B]⟩) (k : Fin B) (n : Fin A) :
    h.lift (ix1 k) n = ix2 n k :=
  funext fun a => Fin.ext (by match a with | ⟨0, _⟩ => rfl | ⟨1, _⟩ => rfl)

/-- A sum over the rows, at column `k`. -/
theorem colSum_apply {A B : Nat} {φ : FTy} (src : FVec Ideal ⟨2, ![A, B]⟩ φ) (acc : BitVec φ.bits)
    (h : (⟨2, ![A, B]⟩ : Shape).Reduces [0] ⟨1, ![B]⟩) (hφ : FKind.Formats φ) (hacc : acc = FKind.add.neutral φ hφ) (k : Fin B) :
    multiReduction .add [0] ⟨1, ![B]⟩ src acc h hφ hacc (ix1 k) = ∑ n : Fin A, src (ix2 n k) := by
  rw [Ideal.multiReduction_add_single]
  exact Finset.sum_congr rfl fun n _ => congrArg src (lift_col h k n)

theorem massV_apply (x0 : Vec Ideal S1x1024x512 .f32) (x1 : Vec Ideal S512x64 .f32) (k : Fin 64) :
    massV x0 x1 (ix1 k) = ∑ n : Fin 1024, assignV x0 x1 (ix2 n k) :=
  colSum_apply (assignV x0 x1) _ reduces_S1024x64_S64 (.inl rfl) rfl k

theorem massB_apply (x0 : Vec Ideal S1x1024x512 .f32) (x1 : Vec Ideal S512x64 .f32) (d : Fin 512) (k : Fin 64) :
    massB x0 x1 (ix2 d k) = massV x0 x1 (ix1 k) :=
  (broadcastTo_1b_ab_apply _ broadcasts_S1x64_S512x64 d k).trans (shapeCast_a_1a_apply _ shapeCasts_S64_S1x64 0 k)

/-! ### The second product: both operands contracted along the 1024 descriptors -/

theorem lhs_weighted_0 (j : S512x64.Idx) (q : dot_S1024x512_S1024x64_S512x64_0_0_1_1_n_n.contr.Idx) :
    (dot_S1024x512_S1024x64_S512x64_0_0_1_1_n_n.lhsIdx j q 0).val = (q ⟨0, by decide⟩).val :=
  dot_S1024x512_S1024x64_S512x64_0_0_1_1_n_n.lhsIdx_val_of_single rfl j q

theorem lhs_weighted_1 (j : S512x64.Idx) (q : dot_S1024x512_S1024x64_S512x64_0_0_1_1_n_n.contr.Idx) :
    (dot_S1024x512_S1024x64_S512x64_0_0_1_1_n_n.lhsIdx j q 1).val = (j 0).val := by
  unfold DotDims.lhsIdx
  rw [dif_neg (show ¬(1 : Fin S1024x512.rank) ∈ dot_S1024x512_S1024x64_S512x64_0_0_1_1_n_n.lhsBatch by decide),
    dif_pos (show (1 : Fin S1024x512.rank) ∈ dot_S1024x512_S1024x64_S512x64_0_0_1_1_n_n.lhsNonContracting by decide)]
  rfl

theorem rhs_weighted_0 (j : S512x64.Idx) (q : dot_S1024x512_S1024x64_S512x64_0_0_1_1_n_n.contr.Idx) :
    (dot_S1024x512_S1024x64_S512x64_0_0_1_1_n_n.rhsIdx j q 0).val = (q ⟨0, by decide⟩).val :=
  dot_S1024x512_S1024x64_S512x64_0_0_1_1_n_n.rhsIdx_val_of_single rfl j q

theorem rhs_weighted_1 (j : S512x64.Idx) (q : dot_S1024x512_S1024x64_S512x64_0_0_1_1_n_n.contr.Idx) :
    (dot_S1024x512_S1024x64_S512x64_0_0_1_1_n_n.rhsIdx j q 1).val = (j 1).val := by
  unfold DotDims.rhsIdx
  rw [dif_neg (show ¬(1 : Fin S1024x64.rank) ∈ dot_S1024x512_S1024x64_S512x64_0_0_1_1_n_n.rhsBatch by decide),
    dif_pos (show (1 : Fin S1024x64.rank) ∈ dot_S1024x512_S1024x64_S512x64_0_0_1_1_n_n.rhsNonContracting by decide)]
  rfl

/-- The second product at `(d, k)`: the sum over the 1024 descriptors. -/
theorem weighted_apply (x0 : Vec Ideal S1x1024x512 .f32) (x1 : Vec Ideal S512x64 .f32) (d : Fin 512) (k : Fin 64) :
    weighted x0 x1 (ix2 d k) = ∑ n : Fin 1024, descr x0 (ix2 n d) * assignV x0 x1 (ix2 n k) := by
  unfold weighted
  generalize descr x0 = a
  generalize assignV x0 x1 = b
  simp only [matmul]
  rw [Ideal.matmul_constant_zero_apply,
    ← Equiv.sum_comp (contrEquiv1 dot_S1024x512_S1024x64_S512x64_0_0_1_1_n_n 1024 rfl rfl).symm]
  refine Finset.sum_congr rfl fun n _ => ?_
  have hn := contrEquiv1_symm_val dot_S1024x512_S1024x64_S512x64_0_0_1_1_n_n 1024 rfl rfl n
  have el : dot_S1024x512_S1024x64_S512x64_0_0_1_1_n_n.lhsIdx (ix2 d k)
      ((contrEquiv1 dot_S1024x512_S1024x64_S512x64_0_0_1_1_n_n 1024 rfl rfl).symm n) = ix2 n d :=
    funext fun c => Fin.ext (by
      match c with
      | ⟨0, _⟩ => exact (lhs_weighted_0 _ _).trans hn
      | ⟨1, _⟩ => exact lhs_weighted_1 _ _)
  have er : dot_S1024x512_S1024x64_S512x64_0_0_1_1_n_n.rhsIdx (ix2 d k)
      ((contrEquiv1 dot_S1024x512_S1024x64_S512x64_0_0_1_1_n_n 1024 rfl rfl).symm n) = ix2 n k :=
    funext fun c => Fin.ext (by
      match c with
      | ⟨0, _⟩ => exact (rhs_weighted_0 _ _).trans hn
      | ⟨1, _⟩ => exact rhs_weighted_1 _ _)
  rw [el, er]

theorem residV_apply (x0 : Vec Ideal S1x1024x512 .f32) (x1 x2 : Vec Ideal S512x64 .f32) (d : Fin 512) (k : Fin 64) :
    residV x0 x1 x2 (ix2 d k) = weighted x0 x1 (ix2 d k) - massV x0 x1 (ix1 k) * x2 (ix2 d k) := by
  show weighted x0 x1 (ix2 d k) - massB x0 x1 (ix2 d k) * clus x2 (ix2 d k) = _
  rw [massB_apply, clus_eq]

theorem colSq_apply (x0 : Vec Ideal S1x1024x512 .f32) (x1 x2 : Vec Ideal S512x64 .f32) (k : Fin 64) :
    colSq x0 x1 x2 (ix1 k) = ∑ d : Fin 512, residV x0 x1 x2 (ix2 d k) * residV x0 x1 x2 (ix2 d k) :=
  colSum_apply (mulf (residV x0 x1 x2) (residV x0 x1 x2)) _ reduces_S512x64_S64 (.inl rfl) rfl k

theorem colNormV_apply (x0 : Vec Ideal S1x1024x512 .f32) (x1 x2 : Vec Ideal S512x64 .f32) (u : Fin 1) (k : Fin 64) :
    colNormV x0 x1 x2 (ix2 u k) = max (Ideal.sqrt (colSq x0 x1 x2 (ix1 k))) normFloor := by
  show max (Ideal.sqrt (shapeCast S1x64 (colSq x0 x1 x2) shapeCasts_S64_S1x64 (ix2 u k))) normFloor = _
  rw [shapeCast_a_1a_apply]

theorem intraV_apply (x0 : Vec Ideal S1x1024x512 .f32) (x1 x2 : Vec Ideal S512x64 .f32) (d : Fin 512) (k : Fin 64) :
    intraV x0 x1 x2 (ix2 d k) = Ideal.div (residV x0 x1 x2 (ix2 d k)) (colNormV x0 x1 x2 (ix2 (0 : Fin 1) k)) := by
  show Ideal.div (residV x0 x1 x2 (ix2 d k))
    (broadcastTo S512x64 (colNormV x0 x1 x2) broadcasts_S1x64_S512x64 (ix2 d k)) = _
  rw [broadcastTo_1b_ab_apply]

/-! ### The sum over a whole 1 × A × B array -/

/-- An index of a 1 × A × B array is its last two coordinates. -/
def idxEquiv1ab {A B : Nat} : (⟨3, ![1, A, B]⟩ : Shape).Idx ≃ Fin A × Fin B where
  toFun i := (i 1, i 2)
  invFun p := ix3 (0 : Fin 1) p.1 p.2
  left_inv i := funext fun a => by
    match a with
    | ⟨0, h0⟩ =>
      exact Fin.ext (by
        have h : (i ⟨0, h0⟩).val < 1 := (i ⟨0, h0⟩).isLt
        show 0 = (i ⟨0, h0⟩).val
        omega)
    | ⟨1, _⟩ => rfl
    | ⟨2, _⟩ => rfl
  right_inv _ := rfl

/-- So a sum over such an array is the double sum over those coordinates. -/
theorem sum_idx1ab {M : Type*} [AddCommMonoid M] {A B : Nat} (f : (⟨3, ![1, A, B]⟩ : Shape).Idx → M) :
    ∑ i, f i = ∑ a : Fin A, ∑ b : Fin B, f (ix3 (0 : Fin 1) a b) := by
  rw [← Equiv.sum_comp (idxEquiv1ab (A := A) (B := B)).symm f, Fintype.sum_prod_type]
  rfl

theorem totSq_apply (x0 : Vec Ideal S1x1024x512 .f32) (x1 x2 : Vec Ideal S512x64 .f32) (j : S1.Idx) :
    totSq x0 x1 x2 j = ∑ d : Fin 512, ∑ k : Fin 64, intraV x0 x1 x2 (ix2 d k) * intraV x0 x1 x2 (ix2 d k) := by
  refine (Ideal.multiReduction_add_total
    (shapeCast S1x512x64 (mulf (intraV x0 x1 x2) (intraV x0 x1 x2)) shapeCasts_S512x64_S1x512x64) 0x00000000#32
    reduces_S1x512x64_S1 (by decide) (.inl rfl) rfl j).trans ?_
  rw [sum_idx1ab]
  refine Finset.sum_congr rfl fun d _ => Finset.sum_congr rfl fun k _ => ?_
  rw [shapeCast_ab_1ab_apply]
  rfl

theorem totSqS_eq (x0 : Vec Ideal S1x1024x512 .f32) (x1 x2 : Vec Ideal S512x64 .f32) :
    totSqS x0 x1 x2 = ∑ d : Fin 512, ∑ k : Fin 64, intraV x0 x1 x2 (ix2 d k) * intraV x0 x1 x2 (ix2 d k) := by
  unfold totSqS extractAt shapeCast
  exact totSq_apply x0 x1 x2 _

theorem resultV_apply (x0 : Vec Ideal S1x1024x512 .f32) (x1 x2 : Vec Ideal S512x64 .f32) (d : Fin 512) (k : Fin 64) :
    resultV x0 x1 x2 (ix2 d k)
      = Ideal.div (intraV x0 x1 x2 (ix2 d k)) (max (Ideal.sqrt (totSqS x0 x1 x2)) normFloor) := rfl

/-! ## Each stage is the per-batch mathematics' function of the same name -/

section Spec

variable (x0 : Vec Ideal S1x1024x512 .f32) (x1 x2 : Vec Ideal S512x64 .f32)

/-- The descriptor block as a matrix of extended reals. -/
abbrev blkX : Fin 1024 → Fin 512 → EReal := fun n d' => x0 (ix3 (0 : Fin 1) n d')
/-- A 512 × 64 block as a matrix of extended reals. -/
abbrev blkM (x : Vec Ideal S512x64 .f32) : Fin 512 → Fin 64 → EReal := fun d' k' => x (ix2 d' k')

theorem logits_eq (n : Fin 1024) (k : Fin 64) : logits x0 x1 (ix2 n k) = logit (blkX x0) (blkM x1) n k := by
  rw [logits_apply]
  exact Finset.sum_congr rfl fun d _ => by rw [descr_apply, clus_eq]

theorem rowMaxV_eq (n : Fin 1024) : rowMaxV x0 x1 (ix1 n) = rowMax (blkX x0) (blkM x1) n := by
  rw [rowMaxV_apply]
  unfold rowMax
  exact congrArg (fun f => Finset.fold max maxStart f Finset.univ) (funext fun k => logits_eq x0 x1 n k)

theorem expos_eq (n : Fin 1024) (k : Fin 64) : expos x0 x1 (ix2 n k) = expo (blkX x0) (blkM x1) n k := by
  rw [expos_apply, logits_eq, rowMaxV_eq]
  rfl

theorem expSum_eq (n : Fin 1024) : expSum x0 x1 (ix1 n) = ∑ k' : Fin 64, expo (blkX x0) (blkM x1) n k' := by
  rw [expSum_apply]
  exact Finset.sum_congr rfl fun k _ => expos_eq x0 x1 n k

theorem assignV_eq (n : Fin 1024) (k : Fin 64) : assignV x0 x1 (ix2 n k) = assign (blkX x0) (blkM x1) n k := by
  rw [assignV_apply, expos_eq, expSum_eq]
  rfl

theorem massV_eq (k : Fin 64) : massV x0 x1 (ix1 k) = mass (blkX x0) (blkM x1) k := by
  rw [massV_apply]
  exact Finset.sum_congr rfl fun n _ => assignV_eq x0 x1 n k

theorem residV_eq (d : Fin 512) (k : Fin 64) :
    residV x0 x1 x2 (ix2 d k) = resid (blkX x0) (blkM x1) (blkM x2) d k := by
  have h : ∑ n : Fin 1024, descr x0 (ix2 n d) * assignV x0 x1 (ix2 n k)
      = ∑ n : Fin 1024, blkX x0 n d * assign (blkX x0) (blkM x1) n k :=
    Finset.sum_congr rfl fun n _ => by rw [descr_apply, assignV_eq]
  rw [residV_apply, weighted_apply, massV_eq, h]
  rfl

theorem colNormV_eq (u : Fin 1) (k : Fin 64) :
    colNormV x0 x1 x2 (ix2 u k) = colNorm (blkX x0) (blkM x1) (blkM x2) k := by
  have h : ∑ d : Fin 512, residV x0 x1 x2 (ix2 d k) * residV x0 x1 x2 (ix2 d k)
      = ∑ d : Fin 512, resid (blkX x0) (blkM x1) (blkM x2) d k * resid (blkX x0) (blkM x1) (blkM x2) d k :=
    Finset.sum_congr rfl fun d _ => by rw [residV_eq]
  rw [colNormV_apply, colSq_apply, h]
  rfl

theorem intraV_eq (d : Fin 512) (k : Fin 64) :
    intraV x0 x1 x2 (ix2 d k) = intra (blkX x0) (blkM x1) (blkM x2) d k := by
  rw [intraV_apply, residV_eq, colNormV_eq]
  rfl

theorem fullNorm_eq :
    max (Ideal.sqrt (totSqS x0 x1 x2)) normFloor = fullNorm (blkX x0) (blkM x1) (blkM x2) := by
  have h : ∑ d : Fin 512, ∑ k : Fin 64, intraV x0 x1 x2 (ix2 d k) * intraV x0 x1 x2 (ix2 d k)
      = ∑ d : Fin 512, ∑ k : Fin 64,
          intra (blkX x0) (blkM x1) (blkM x2) d k * intra (blkX x0) (blkM x1) (blkM x2) d k :=
    Finset.sum_congr rfl fun d _ => Finset.sum_congr rfl fun k _ => by rw [intraV_eq]
  rw [totSqS_eq, h]
  rfl

theorem resultV_eq (d : Fin 512) (k : Fin 64) :
    resultV x0 x1 x2 (ix2 d k) = vlad (blkX x0) (blkM x1) (blkM x2) d k := by
  rw [resultV_apply, intraV_eq, fullNorm_eq]
  rfl

end Spec

/-- The stored block at `(u, d, k)` is the per-batch result at `(d, k)` of the descriptor block, the effective
    clusters block and the centres block. -/
theorem stored_apply (x0 : Vec Ideal S1x1024x512 .f32) (x1 x2 : Vec Ideal S512x64 .f32) (u : Fin 1) (d : Fin 512) (k : Fin 64) :
    k0_pay1 (F := Ideal) (k0_pay2 (F := Ideal) x0 x1 x2) (ix3 u d k)
      = vlad (fun n d' => x0 (ix3 (0 : Fin 1) n d')) (fun d' k' => x1 (ix2 d' k')) (fun d' k' => x2 (ix2 d' k')) d k := by
  rw [pay2_eq]
  show shapeCast S1x512x64 (resultV x0 x1 x2) shapeCasts_S512x64_S1x512x64 (ix3 u d k) = _
  rw [shapeCast_ab_1ab_apply]
  exact resultV_eq x0 x1 x2 d k

end Cert.KernelBlock

end
-- ==== Proof.Target.lean ====
/-
  The result array both programs are shown to compute, as one function of the five argument arrays that matter
  (the descriptors, the cluster matrix, the batch-norm weight and variance, the centres): entry `(b, j)` of the
  `64 × 32768` result is the normalized residual of batch `b` at dimension `j / 64` and cluster `j % 64`.
-/
import proofs.«177322_j36215164240269_1_alg».proof.Proof.VladSpec
import Idealize.ShloMosaic.Lib.ValueIdx

noncomputable section

namespace Cert.Target

open Idealize.ShloMosaic Idealize.ShloMosaic.ValueIdx Cert.VladSpec

/-- Batch `b` of the descriptors as a matrix. -/
abbrev batchOf (x : FVec Ideal ⟨3, ![64, 1024, 512]⟩ .f32) (b : Fin 64) : Fin 1024 → Fin 512 → EReal :=
  fun n d => x (ix3 b n d)

/-- The effective cluster matrix of the arguments. -/
def effOf (cl : FVec Ideal ⟨2, ![512, 80]⟩ .f32) (w v : FVec Ideal ⟨1, ![80]⟩ .f32) : Fin 512 → Fin 64 → EReal :=
  effClusters (by decide : 64 ≤ 80) (fun d j => cl (ix2 d j)) (fun j => w (ix1 j)) (fun j => v (ix1 j))

/-- The centres as a matrix. -/
abbrev centresOf (c2 : FVec Ideal ⟨3, ![1, 512, 64]⟩ .f32) : Fin 512 → Fin 64 → EReal :=
  fun d k => c2 (ix3 (0 : Fin 1) d k)

/-- The normalized residual of batch `b`. -/
def batchResult (x : FVec Ideal ⟨3, ![64, 1024, 512]⟩ .f32) (cl : FVec Ideal ⟨2, ![512, 80]⟩ .f32)
    (w v : FVec Ideal ⟨1, ![80]⟩ .f32) (c2 : FVec Ideal ⟨3, ![1, 512, 64]⟩ .f32) (b : Fin 64) : Fin 512 → Fin 64 → EReal :=
  vlad (batchOf x b) (effOf cl w v) (centresOf c2)

/-- The whole result array. -/
def result (x : FVec Ideal ⟨3, ![64, 1024, 512]⟩ .f32) (cl : FVec Ideal ⟨2, ![512, 80]⟩ .f32)
    (w v : FVec Ideal ⟨1, ![80]⟩ .f32) (c2 : FVec Ideal ⟨3, ![1, 512, 64]⟩ .f32) : FVec Ideal ⟨2, ![64, 32768]⟩ .f32 :=
  fun i => batchResult x cl w v c2 (i 0) ⟨(i 1).val / 64, by have := idx2_lt1 i; omega⟩ ⟨(i 1).val % 64, Nat.mod_lt _ (by decide)⟩

end Cert.Target

end
-- ==== Proof.KernelArray.lean ====
/-
  From grid points to the whole result of the idealized kernel program.

  The program scales the first 64 columns of the cluster matrix and drops the centres' unit axis on the host, runs the
  kernel over the 64 batches — grid point `t` reads batch `t` of the descriptors and the two whole matrices and writes
  block `t` of a `64 × 512 × 64` array —, and flattens that array to `64 × 32768` on the host. Block by block the kernel
  writes the per-batch result; the blocks tile the array; the flattening sends `(b, d, k)` to `(b, 64 d + k)`.
-/
import proofs.«177322_j36215164240269_1_alg».proof.Proof.Gen.KernelIdeal.Frame
import proofs.«177322_j36215164240269_1_alg».proof.Proof.KernelBlock
import proofs.«177322_j36215164240269_1_alg».proof.Proof.Target
import Idealize.ShloMosaic.Lib.Pipeline.Value
import Idealize.ShloMosaic.Lib.ValueLayout
import Idealize.ShloMosaic.Lib.StableHlo.Run

noncomputable section

namespace Cert.KernelArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.VladSpec Cert.Target

/-! ## The host operations before the kernel -/

/-- The scaled first 64 columns of the cluster matrix, as the host computes them. -/
def hostEff (a1 : FVec Ideal S512x80 .f32) (a2 a5 : FVec Ideal S80 .f32) : FVec Ideal S512x64 .f32 :=
  mulf (extractStridedSlice S512x64 ![0, 0] a1 slices_S512x80_S512x64_0_0)
    (broadcastInDim S512x64 ![0, 1] bcast_S1x64_S512x64_0_1
      (broadcastInDim S1x64 ![1] bcast_S64_S1x64_1
        (extractStridedSlice S64 ![0]
          (Host.divf a2 (Host.sqrt (addf a5 (broadcastInDim S80 ![] bcast_S_S80 (constant (F := Ideal) S_ .f32 0x3727C5AC#32)))))
          slices_S80_S64_0)))

/-- Entry `(d, k)` of it is column `k` of the cluster matrix at `d` times that column's scale. -/
theorem hostEff_apply (a1 : FVec Ideal S512x80 .f32) (a2 a5 : FVec Ideal S80 .f32) (d : Fin 512) (k : Fin 64) :
    hostEff a1 a2 a5 (ix2 d k) = effOf a1 a2 a5 d k := by
  unfold hostEff
  rw [mulf_apply,
    extractStridedSlice_apply ![0, 0] a1 slices_S512x80_S512x64_0_0 (ix2 d k) (ix2 d (Fin.castLE (by decide) k)) (fun a => match a with
      | ⟨0, _⟩ => by show d.val = 0 + d.val; omega
      | ⟨1, _⟩ => by show k.val = 0 + k.val; omega),
    broadcastInDim_apply _ bcast_S1x64_S512x64_0_1 _ (ix2 d k) (ix2 (0 : Fin 1) k) (fun a => match a with
      | ⟨0, _⟩ => by show 0 = if (1 : Nat) = 1 then 0 else d.val; rw [if_pos rfl]
      | ⟨1, _⟩ => by show k.val = if (64 : Nat) = 1 then 0 else k.val; rw [if_neg (by decide)]),
    broadcastInDim_apply _ bcast_S64_S1x64_1 _ (ix2 (0 : Fin 1) k) (ix1 k) (fun a => match a with
      | ⟨0, _⟩ => by show k.val = if (64 : Nat) = 1 then 0 else k.val; rw [if_neg (by decide)]),
    extractStridedSlice_apply ![0] _ slices_S80_S64_0 (ix1 k) (ix1 (Fin.castLE (by decide) k)) (fun a => match a with
      | ⟨0, _⟩ => by show k.val = 0 + k.val; omega)]
  show a1 _ * FloatOps.hostDivf (a2 _) (FloatOps.hostUnary .sqrt (FloatOps.addf (a5 _) (broadcastInDim S80 ![] bcast_S_S80 (constant (F := Ideal) S_ .f32 0x3727C5AC#32) _))) = _
  rw [broadcastInDim_apply _ bcast_S_S80 _ (ix1 (Fin.castLE (by decide) k)) ix0 (fun a => a.elim0)]
  rfl

/-- The centres with their unit axis dropped, as the host computes them. -/
def hostCentres (a6 : FVec Ideal S1x512x64 .f32) : FVec Ideal S512x64 .f32 :=
  shapeCast S512x64 a6 shapeCasts_S1x512x64_S512x64

theorem hostCentres_apply (a6 : FVec Ideal S1x512x64 .f32) (d : Fin 512) (k : Fin 64) :
    hostCentres a6 (ix2 d k) = a6 (ix3 (0 : Fin 1) d k) :=
  shapeCast_1ab_ab_apply a6 shapeCasts_S1x512x64_S512x64 d k

variable (m : (ℓ : Loc nD τ sig) → Buf (Elt Ideal) ℓ) (ρ : Dev nD → PrngReg)

/-- The region finds the scaled clusters in its second operand, -/
theorem V_eff (c : Dev nD) : (V m c main_v8 : S512x64.Idx → EReal)
    = hostEff (m ((c : Thread nD τ).loc main_arg1)) (m ((c : Thread nD τ).loc main_arg2)) (m ((c : Thread nD τ).loc main_arg5)) := by
  show StableHlo.after hostOps0 (fun b => m (c, b)) (Proc.devRef .tc main_v8) = _
  after_results
  rfl

/-- and the centres in its third. -/
theorem V_centres (c : Dev nD) : (V m c main_v9 : S512x64.Idx → EReal) = hostCentres (m ((c : Thread nD τ).loc main_arg6)) := by
  show StableHlo.after hostOps0 (fun b => m (c, b)) (Proc.devRef .tc main_v9) = _
  after_results
  rfl

/-! ## The index maps -/

/-- Over the 64 grid points: the descriptors' window and the output window are at block `t` of their first axis, and
    every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## One grid point -/

/-- The `64 × 512 × 64` array the kernel leaves: batch by batch the per-batch result. -/
def outArr (c : Dev nD) : S64x512x64.Idx → EReal := fun i =>
  batchResult (m ((c : Thread nD τ).loc main_arg0)) (m ((c : Thread nD τ).loc main_arg1)) (m ((c : Thread nD τ).loc main_arg2))
    (m ((c : Thread nD τ).loc main_arg5)) (m ((c : Thread nD τ).loc main_arg6)) (i 0) (i 1) (i 2)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The stored block at any of its indices, over plain vectors. -/
theorem stored_idx (x0 : Vec Ideal S1x1024x512 .f32) (x1 x2 : Vec Ideal S512x64 .f32) (y : S1x512x64.Idx) :
    k0_pay1 (F := Ideal) (k0_pay2 (F := Ideal) x0 x1 x2) y
      = vlad (fun n d' => x0 (ix3 (0 : Fin 1) n d')) (fun d' k' => x1 (ix2 d' k')) (fun d' k' => x2 (ix2 d' k')) (y 1) (y 2) := by
  obtain ⟨u, d, k, rfl⟩ : ∃ (u : Fin 1) (d : Fin 512) (k : Fin 64), y = ix3 u d k := ⟨y 0, y 1, y 2, eq_ix3 y⟩
  exact KernelBlock.stored_apply x0 x1 x2 u d k

/-- What point `t` writes back is block `t` of that array: the descriptors' block is batch `t`, the other two blocks
    are the whole host-computed matrices. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold out0_3
  rw [View.canon_unit_zero zeros3]
  simp only [View.ld_unit_zero (S := S1x1024x512) zeros3, View.ld_unit_zero (S := S512x64) zeros2]
  obtain ⟨e00, e01, e02, e10, e11, e20, e21, e30, e31, e32⟩ := idx_facts t
  funext j
  show k0_pay1 (k0_pay2 (iblk m c 0 t) (iblk m c 1 t) (iblk m c 2 t)) j = outArr m c (((cfg0.win 3).blk t).view.emb j)
  refine (stored_idx (iblk m c 0 t) (iblk m c 1 t) (iblk m c 2 t) j).trans ?_
  have h0 : ((((cfg0.win 3).blk t).view.emb j) 0).val = t.val := by
    show win0_3.index t (0 : Fin 3) * 1 + 1 * (j 0).val = t.val
    have hj : (j 0).val < 1 := (j 0).isLt
    omega
  have h1 : ((((cfg0.win 3).blk t).view.emb j) 1).val = (j 1).val := by
    show win0_3.index t (1 : Fin 3) * 512 + 1 * (j 1).val = (j 1).val
    omega
  have h2 : ((((cfg0.win 3).blk t).view.emb j) 2).val = (j 2).val := by
    show win0_3.index t (2 : Fin 3) * 64 + 1 * (j 2).val = (j 2).val
    omega
  have hX : (fun (n : Fin 1024) (d' : Fin 512) => iblk m c 0 t (ix3 (0 : Fin 1) n d'))
      = batchOf (m ((c : Thread nD τ).loc main_arg0)) ((((cfg0.win 3).blk t).view.emb j) 0) := by
    funext n d'
    show V m c main_arg0 (((cfg0.win 0).blk t).view.emb (ix3 (0 : Fin 1) n d')) = m ((c : Thread nD τ).loc main_arg0) (ix3 _ n d')
    rw [V_main_arg0]
    refine congrArg _ (funext fun a => Fin.ext ?_)
    match a with
    | ⟨0, _⟩ => show win0_0.index t (0 : Fin 3) * 1 + 1 * 0 = ((((cfg0.win 3).blk t).view.emb j) 0).val; omega
    | ⟨1, _⟩ => show win0_0.index t (1 : Fin 3) * 1024 + 1 * n.val = n.val; omega
    | ⟨2, _⟩ => show win0_0.index t (2 : Fin 3) * 512 + 1 * d'.val = d'.val; omega
  have hE : (fun (d' : Fin 512) (k' : Fin 64) => iblk m c 1 t (ix2 d' k'))
      = effOf (m ((c : Thread nD τ).loc main_arg1)) (m ((c : Thread nD τ).loc main_arg2)) (m ((c : Thread nD τ).loc main_arg5)) := by
    funext d' k'
    show (V m c main_v8 : S512x64.Idx → EReal) (((cfg0.win 1).blk t).view.emb (ix2 d' k')) = _
    rw [V_eff, ← hostEff_apply]
    refine congrArg _ (funext fun a => Fin.ext ?_)
    match a with
    | ⟨0, _⟩ => show win0_1.index t (0 : Fin 2) * 512 + 1 * d'.val = d'.val; omega
    | ⟨1, _⟩ => show win0_1.index t (1 : Fin 2) * 64 + 1 * k'.val = k'.val; omega
  have hC : (fun (d' : Fin 512) (k' : Fin 64) => iblk m c 2 t (ix2 d' k')) = centresOf (m ((c : Thread nD τ).loc main_arg6)) := by
    funext d' k'
    show (V m c main_v9 : S512x64.Idx → EReal) (((cfg0.win 2).blk t).view.emb (ix2 d' k')) = _
    rw [V_centres]
    have hidx : ((cfg0.win 2).blk t).view.emb (ix2 d' k') = ix2 d' k' := funext fun a => Fin.ext (by
      match a with
      | ⟨0, _⟩ => show win0_2.index t (0 : Fin 2) * 512 + 1 * d'.val = d'.val; omega
      | ⟨1, _⟩ => show win0_2.index t (1 : Fin 2) * 64 + 1 * k'.val = k'.val; omega)
    exact (congrArg (hostCentres _) hidx).trans (hostCentres_apply _ d' k')
  unfold outArr batchResult
  rw [hX, hE, hC]
  exact congrArg₂ (vlad _ _ _) (Fin.ext h1.symm) (Fin.ext h2.symm)

/-! ## The blocks tile the array -/

theorem mem_blk (t : Fin cfg0.N) (i : S64x512x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v10).slice (win0_3.rect t)).set ↔ _
  rw [View.set_slice_whole, Rect.mem_set_unit]
  exact Iff.rfl

/-- Index `(b, d, k)` lies in the block of point `b`. -/
theorem cover (i : S64x512x64.Idx) : ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 64 := (i 2).isLt
  obtain ⟨t, ht⟩ : ∃ t : Fin cfg0.N, t.val = (i 0).val := ⟨⟨(i 0).val, by have := N_0; show (i 0).val < grid0.N; omega⟩, rfl⟩
  obtain ⟨e00, e01, e02, e10, e11, e20, e21, e30, e31, e32⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- So the kernel's output array ends as that array. -/
theorem final (c : Dev nD) : (dats m 0 c).arrAt 3 cfg0.N = outArr m c :=
  (dats m 0 c).arrAt_eq_of_cover 3 (outArr m c) (fun t _ => flushed_eq m c t) cover

/-! ## The flattening after the kernel -/

/-- The program's result is the kernel's output array flattened. -/
theorem tail_eq (c : Dev nD) : Pipeline.afterTail₀ cfgs (dats m) 0 (V0 m) [hostOps1] c main_v11
    = shapeCast S64x32768 (outArr m c) shapeCasts_S64x512x64_S64x32768 := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v10) = outArr m c :=
    (Pipeline.withArrays_arr spec0 launch0.win.arr_inj c _ _ 3).trans (final m c)
  rw [e]
  rfl

/-- Entry `(b, j)` of the flattened array is entry `(b, j / 64, j % 64)`: the target array. -/
theorem flat_eq (c : Dev nD) : shapeCast S64x32768 (outArr m c) shapeCasts_S64x512x64_S64x32768
    = result (m ((c : Thread nD τ).loc main_arg0)) (m ((c : Thread nD τ).loc main_arg1)) (m ((c : Thread nD τ).loc main_arg2))
        (m ((c : Thread nD τ).loc main_arg5)) (m ((c : Thread nD τ).loc main_arg6)) := by
  funext i
  obtain ⟨b, j, rfl⟩ : ∃ (b : Fin 64) (j : Fin 32768), i = ix2 b j := ⟨i 0, i 1, eq_ix2 i⟩
  have hj : j.val < 32768 := j.isLt
  rw [shapeCast_apply (outArr m c) shapeCasts_S64x512x64_S64x32768 (ix2 b j)
    (ix3 b (⟨j.val / 64, by omega⟩ : Fin 512) (⟨j.val % 64, Nat.mod_lt _ (by decide)⟩ : Fin 64)) (by
      rw [Shape.rowMajor_val_three, Shape.rowMajor_val_two]
      show (b.val * 512 + j.val / 64) * 64 + j.val % 64 = b.val * 32768 + j.val
      omega)]
  rfl

/-! ## The run -/

/-- Every weakly fair execution of the idealized kernel program ends with its result at the target array of the
    arguments, and the arguments as they were. -/
theorem run : θ_run defs (onTc (τ := τ) (main (F := Ideal))) ⟨m, fun _ => 0, ρ⟩ (fun r => ∀ c : Dev nD,
      r.2.mem ((c.tc : Thread nD τ).loc main_v11)
        = result (m ((c.tc : Thread nD τ).loc main_arg0)) (m ((c.tc : Thread nD τ).loc main_arg1)) (m ((c.tc : Thread nD τ).loc main_arg2))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v11 (Pipeline.mem_restRefs_of main_v11 (by decide) (by decide))).trans ((tail_eq m c).trans (flat_eq m c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelArray

end
-- ==== Proof.RefValue.lean ====
/-
  The reference program's result, entry by entry, is the target array.
-/
import proofs.«177322_j36215164240269_1_alg».proof.Proof.Gen.ReferenceIdeal.Read
import proofs.«177322_j36215164240269_1_alg».proof.Proof.Target
import Idealize.ShloMosaic.Lib.ValueLayout

noncomputable section

namespace Cert.RefValue

open Idealize.ShloMosaic Idealize.ShloMosaic.ValueIdx Cert.ReferenceIdeal Cert.ReferenceIdeal.Read Cert.VladSpec Cert.Target

variable (x0 : FVec Ideal S64x1024x512 .f32) (x1 : FVec Ideal S512x80 .f32) (x2 x5 : FVec Ideal S80 .f32)
  (x6 : FVec Ideal S1x512x64 .f32)

/-! ## The effective cluster matrix (stages 0 to 7) -/

/-- Column `j` of the cluster matrix is multiplied by the weight over the square root of the variance plus the
    stabilizing word. -/
theorem eff_eq (d : Fin 512) (j : Fin 80) :
    val_main_v7 (F := Ideal) x1 x2 x5 (ix2 d j)
      = x1 (ix2 d j) * scale (fun j => x2 (ix1 j)) (fun j => x5 (ix1 j)) j := by
  rw [val_main_v7_apply, val_main_v6_apply, val_main_v5_apply, val_main_v3_apply, val_main_v2_apply, val_main_v1_apply,
    val_main_v0_apply, val_main_cst_apply]
  have e : idx_main_v5 (idx_main_v6 (ix2 d j)) = ix1 j := funext fun a => Fin.ext (by
    match a with
    | ⟨0, _⟩ => rfl)
  rw [e]
  simp only [Ideal.mulf_def, Ideal.addf_def, Ideal.hostDivf_def, Ideal.hostUnary_sqrt_def, Ideal.ofBits_def]
  rfl

/-! ## The logits (stages 4, 8, 9) -/

/-- Row `b * 1024 + n` of the flattened descriptors times the first 64 effective columns. -/
theorem logit_eq (b : Fin 64) (n : Fin 1024) (k : Fin 64) :
    val_main_v9 (F := Ideal) x0 x1 x2 x5 (ix2 (⟨b.val * 1024 + n.val, by omega⟩ : Fin 65536) k)
      = logit (batchOf x0 b) (effOf x1 x2 x5) n k := by
  rw [val_main_v9_apply, val_main_v8_apply]
  unfold logit
  refine Finset.sum_congr rfl fun d _ => ?_
  rw [val_main_v4_apply]
  have el : idx_main_v4 (lidx_main_v8 (idx_main_v9 (ix2 (⟨b.val * 1024 + n.val, by omega⟩ : Fin 65536) k)) d)
      = ix3 b n d := funext fun a => Fin.ext (by
    have hb := b.isLt; have hn := n.isLt; have hd := d.isLt
    match a with
    | ⟨0, _⟩ => show ((b.val * 1024 + n.val) * 512 + d.val) / 524288 = b.val; omega
    | ⟨1, _⟩ => show ((b.val * 1024 + n.val) * 512 + d.val) / 512 % 1024 = n.val; omega
    | ⟨2, _⟩ => show ((b.val * 1024 + n.val) * 512 + d.val) % 512 = d.val; omega)
  have er : ridx_main_v8 (idx_main_v9 (ix2 (⟨b.val * 1024 + n.val, by omega⟩ : Fin 65536) k)) d
      = ix2 d (Fin.castLE (by decide : 64 ≤ 80) k) := funext fun a => Fin.ext (by
    match a with
    | ⟨0, _⟩ => rfl
    | ⟨1, _⟩ => rfl)
  rw [el, er, eff_eq]
  rfl

/-! ## The row maximum (stages 10 to 12) -/

/-- Dropping the cluster axis of a `65536 × 64` array leaves its rows. -/
theorem red_row : S65536x64.Reduces [1] S65536 := by decide

/-- Over row `r` of a `65536 × 64` array, the index with `k` put on the reduced axis is `(r, k)`. -/
theorem lift_row (h : S65536x64.Reduces [1] S65536) (r : Fin 65536) (k : Fin 64) :
    h.lift (ix1 r) k = ix2 r k := funext fun a => Fin.ext (by
  match a with
  | ⟨0, _⟩ => rfl
  | ⟨1, _⟩ => rfl)

/-- The reduction over the 64 clusters is the fold of `max` from the starting word; taking `max` with that same word
    once more changes nothing, since a fold of `max` is at least its start. -/
theorem rowMax_eq (b : Fin 64) (n : Fin 1024) :
    val_main_v12 (F := Ideal) x0 x1 x2 x5 (ix1 (⟨b.val * 1024 + n.val, by omega⟩ : Fin 65536))
      = rowMax (batchOf x0 b) (effOf x1 x2 x5) n := by
  rw [val_main_v12_apply, val_main_v11_apply, val_main_cst_1_apply]
  unfold val_main_v10
  rw [Host.reduce_eq_fold_single FloatOps.maximumf _ _ Facts₀.reducesTo_S65536x64_S65536_d1 red_row Facts₀.h_S_,
    val_main_cst_0_apply]
  show max (Ideal.ofBits .f32 0xFF800000#32)
      (Finset.fold max (Ideal.ofBits .f32 0xFF800000#32)
        (fun k : Fin 64 => val_main_v9 (F := Ideal) x0 x1 x2 x5
          (red_row.lift (ix1 (⟨b.val * 1024 + n.val, by omega⟩ : Fin 65536)) k))
        Finset.univ) = _
  simp only [lift_row, logit_eq]
  unfold rowMax
  exact max_eq_right ((Finset.le_fold_max _).2 (Or.inl le_rfl))

/-! ## The exponentials and their row sums (stages 13 to 17) -/

/-- The logit less its row's maximum, exponentiated. -/
theorem expo_eq (b : Fin 64) (n : Fin 1024) (k : Fin 64) :
    val_main_v16 (F := Ideal) x0 x1 x2 x5 (ix2 (⟨b.val * 1024 + n.val, by omega⟩ : Fin 65536) k)
      = expo (batchOf x0 b) (effOf x1 x2 x5) n k := by
  rw [val_main_v16_apply, val_main_v15_apply, val_main_v14_apply, val_main_v13_apply]
  have e : idx_main_v13 (idx_main_v14 (ix2 (⟨b.val * 1024 + n.val, by omega⟩ : Fin 65536) k))
      = ix1 (⟨b.val * 1024 + n.val, by omega⟩ : Fin 65536) := funext fun a => Fin.ext (by
    match a with
    | ⟨0, _⟩ => rfl)
  rw [e, rowMax_eq, logit_eq]
  simp only [Ideal.subf_def, Ideal.hostUnary_exp_def]
  rfl

/-- The sum of a row's exponentials: the float sum starts from the zero word. -/
theorem expSum_eq (b : Fin 64) (n : Fin 1024) :
    val_main_v17 (F := Ideal) x0 x1 x2 x5 (ix1 (⟨b.val * 1024 + n.val, by omega⟩ : Fin 65536))
      = ∑ k : Fin 64, expo (batchOf x0 b) (effOf x1 x2 x5) n k := by
  rw [val_main_v17_apply, val_main_cst_2_apply, Ideal.ofBits_def, Ideal.ofBits_zero_f32, zero_add]
  refine Finset.sum_congr rfl fun k _ => ?_
  have e : idx_main_v17 (ix1 (⟨b.val * 1024 + n.val, by omega⟩ : Fin 65536)) k
      = ix2 (⟨b.val * 1024 + n.val, by omega⟩ : Fin 65536) k := funext fun a => Fin.ext (by
    match a with
    | ⟨0, _⟩ => rfl
    | ⟨1, _⟩ => rfl)
  rw [e, expo_eq]

/-! ## The soft assignment (stages 18 to 21) -/

/-- A row's exponential over the row's sum, on the flattened rows. -/
theorem assignFlat_eq (b : Fin 64) (n : Fin 1024) (k : Fin 64) :
    val_main_v20 (F := Ideal) x0 x1 x2 x5 (ix2 (⟨b.val * 1024 + n.val, by omega⟩ : Fin 65536) k)
      = assign (batchOf x0 b) (effOf x1 x2 x5) n k := by
  rw [val_main_v20_apply, val_main_v19_apply, val_main_v18_apply]
  have e : idx_main_v18 (idx_main_v19 (ix2 (⟨b.val * 1024 + n.val, by omega⟩ : Fin 65536) k))
      = ix1 (⟨b.val * 1024 + n.val, by omega⟩ : Fin 65536) := funext fun a => Fin.ext (by
    match a with
    | ⟨0, _⟩ => rfl)
  rw [e, expSum_eq, expo_eq]
  simp only [Ideal.hostDivf_def]
  rfl

/-- The reshape gives the rows their batch back: entry `(b, n, k)` is row `b * 1024 + n` at `k`. -/
theorem assign_eq (b : Fin 64) (n : Fin 1024) (k : Fin 64) :
    val_main_v21 (F := Ideal) x0 x1 x2 x5 (ix3 b n k) = assign (batchOf x0 b) (effOf x1 x2 x5) n k := by
  rw [val_main_v21_apply]
  have e : idx_main_v21 (ix3 b n k) = ix2 (⟨b.val * 1024 + n.val, by omega⟩ : Fin 65536) k :=
    funext fun a => Fin.ext (by
      have hb := b.isLt; have hn := n.isLt; have hk := k.isLt
      match a with
      | ⟨0, _⟩ => show ((b.val * 1024 + n.val) * 64 + k.val) / 64 = b.val * 1024 + n.val; omega
      | ⟨1, _⟩ => show ((b.val * 1024 + n.val) * 64 + k.val) % 64 = k.val; omega)
  rw [e, assignFlat_eq]

/-! ## The mass and the second product (stages 22, 23) -/

/-- The mass of cluster `k` in batch `b`: the sum of the assignments over the descriptors. -/
theorem mass_eq (b : Fin 64) (k : Fin 64) :
    val_main_v22 (F := Ideal) x0 x1 x2 x5 (ix2 b k) = mass (batchOf x0 b) (effOf x1 x2 x5) k := by
  rw [val_main_v22_apply, val_main_cst_3_apply, Ideal.ofBits_def, Ideal.ofBits_zero_f32, zero_add]
  unfold mass
  refine Finset.sum_congr rfl fun n _ => ?_
  have e : idx_main_v22 (ix2 b k) n = ix3 b n k := funext fun a => Fin.ext (by
    match a with
    | ⟨0, _⟩ => rfl
    | ⟨1, _⟩ => rfl
    | ⟨2, _⟩ => rfl)
  rw [e, assign_eq]

/-- The descriptors of a batch against their assignments, contracted over the descriptors. -/
theorem prod_eq (b : Fin 64) (d : Fin 512) (k : Fin 64) :
    val_main_v23 (F := Ideal) x0 x1 x2 x5 (ix3 b d k)
      = ∑ n : Fin 1024, batchOf x0 b n d * assign (batchOf x0 b) (effOf x1 x2 x5) n k := by
  rw [val_main_v23_apply]
  refine Finset.sum_congr rfl fun n _ => ?_
  have el : lidx_main_v23 (ix3 b d k) n = ix3 b n d := funext fun a => Fin.ext (by
    match a with
    | ⟨0, _⟩ => rfl
    | ⟨1, _⟩ => rfl
    | ⟨2, _⟩ => rfl)
  have er : ridx_main_v23 (ix3 b d k) n = ix3 b n k := funext fun a => Fin.ext (by
    match a with
    | ⟨0, _⟩ => rfl
    | ⟨1, _⟩ => rfl
    | ⟨2, _⟩ => rfl)
  rw [el, er, assign_eq]

/-! ## The residual (stages 24 to 30) -/

/-- The second product less the mass times the centre. -/
theorem resid_eq (b : Fin 64) (d : Fin 512) (k : Fin 64) :
    val_main_v30 (F := Ideal) x0 x1 x2 x5 x6 (ix3 b d k)
      = resid (batchOf x0 b) (effOf x1 x2 x5) (centresOf x6) d k := by
  rw [val_main_v30_apply, val_main_v29_apply, val_main_v27_apply, val_main_v24_apply, val_main_v28_apply,
    val_main_v26_apply, val_main_v25_apply]
  have em : idx_main_v24 (idx_main_v27 (ix3 b d k)) = ix2 b k := funext fun a => Fin.ext (by
    match a with
    | ⟨0, _⟩ => rfl
    | ⟨1, _⟩ => rfl)
  have ec : idx_main_v25 (idx_main_v26 (idx_main_v28 (ix3 b d k))) = ix3 (0 : Fin 1) d k :=
    funext fun a => Fin.ext (by
      have hd := d.isLt; have hk := k.isLt
      match a with
      | ⟨0, _⟩ => rfl
      | ⟨1, _⟩ => show (d.val * 64 + k.val) / 64 % 512 = d.val; omega
      | ⟨2, _⟩ => show (d.val * 64 + k.val) % 64 = k.val; omega)
  rw [em, ec, mass_eq, prod_eq]
  simp only [Ideal.subf_def, Ideal.mulf_def]
  rfl

/-! ## The column norm and the column-normalized residuals (stages 31 to 38) -/

/-- The Euclidean norm of column `k` of the residuals, floored. -/
theorem colNorm_eq (b : Fin 64) (k : Fin 64) :
    val_main_v36 (F := Ideal) x0 x1 x2 x5 x6 (ix3 b (0 : Fin 1) k)
      = colNorm (batchOf x0 b) (effOf x1 x2 x5) (centresOf x6) k := by
  rw [val_main_v36_apply, val_main_v34_apply, val_main_v33_apply, val_main_v32_apply, val_main_cst_4_apply,
    Ideal.ofBits_def, Ideal.ofBits_zero_f32, zero_add, val_main_v35_apply, val_main_cst_5_apply]
  have hs : ∀ d : Fin 512,
      val_main_v31 (F := Ideal) x0 x1 x2 x5 x6 (idx_main_v32 (idx_main_v33 (ix3 b (0 : Fin 1) k)) d)
        = resid (batchOf x0 b) (effOf x1 x2 x5) (centresOf x6) d k
          * resid (batchOf x0 b) (effOf x1 x2 x5) (centresOf x6) d k := fun d => by
    have e : idx_main_v32 (idx_main_v33 (ix3 b (0 : Fin 1) k)) d = ix3 b d k := funext fun a => Fin.ext (by
      match a with
      | ⟨0, _⟩ => rfl
      | ⟨1, _⟩ => rfl
      | ⟨2, _⟩ => rfl)
    rw [e, val_main_v31_apply, resid_eq]
    rfl
  simp only [hs, Ideal.maximumf_def, Ideal.hostUnary_sqrt_def, Ideal.ofBits_def]
  rfl

/-- Each residual over its column's norm. -/
theorem intra_eq (b : Fin 64) (d : Fin 512) (k : Fin 64) :
    val_main_v38 (F := Ideal) x0 x1 x2 x5 x6 (ix3 b d k)
      = intra (batchOf x0 b) (effOf x1 x2 x5) (centresOf x6) d k := by
  rw [val_main_v38_apply, val_main_v37_apply]
  have e : idx_main_v37 (ix3 b d k) = ix3 b (0 : Fin 1) k := funext fun a => Fin.ext (by
    match a with
    | ⟨0, _⟩ => rfl
    | ⟨1, _⟩ => rfl
    | ⟨2, _⟩ => rfl)
  rw [e, colNorm_eq, resid_eq]
  simp only [Ideal.hostDivf_def]
  rfl

/-! ## The flattening (stage 39) -/

/-- Entry `(b, j)` of the flattened array is the normalized residual at dimension `j / 64` and cluster `j % 64`. -/
theorem flat_eq (b : Fin 64) (j : Fin 32768) :
    val_main_v39 (F := Ideal) x0 x1 x2 x5 x6 (ix2 b j)
      = intra (batchOf x0 b) (effOf x1 x2 x5) (centresOf x6) ⟨j.val / 64, by omega⟩ ⟨j.val % 64, by omega⟩ := by
  rw [val_main_v39_apply]
  have e : idx_main_v39 (ix2 b j) = ix3 b (⟨j.val / 64, by omega⟩ : Fin 512) (⟨j.val % 64, by omega⟩ : Fin 64) :=
    funext fun a => Fin.ext (by
      have hb := b.isLt; have hj := j.isLt
      match a with
      | ⟨0, _⟩ => show (b.val * 32768 + j.val) / 32768 = b.val; omega
      | ⟨1, _⟩ => show (b.val * 32768 + j.val) / 64 % 512 = j.val / 64; omega
      | ⟨2, _⟩ => show (b.val * 32768 + j.val) % 64 = j.val % 64; omega)
  rw [e, intra_eq]

/-! ## The full norm (stages 40 to 46) -/

/-- A sum over the `32768` flattened positions is the double sum over dimension and cluster: `(d, k) ↦ k + 64 * d`
    is a bijection, and addition on the extended reals is commutative. -/
theorem sum_flat (g : Fin 512 → Fin 64 → EReal) :
    ∑ j : Fin 32768, g ⟨j.val / 64, by omega⟩ ⟨j.val % 64, by omega⟩ = ∑ d : Fin 512, ∑ k : Fin 64, g d k := by
  rw [← Fintype.sum_prod_type' g]
  refine (Fintype.sum_equiv (finProdFinEquiv (m := 512) (n := 64)) (fun p => g p.1 p.2)
    (fun j : Fin 32768 => g ⟨j.val / 64, by omega⟩ ⟨j.val % 64, by omega⟩) fun p => ?_).symm
  have h1 := p.1.isLt; have h2 := p.2.isLt
  have hv : (finProdFinEquiv p).val = p.2.val + 64 * p.1.val := rfl
  congr 1
  · exact Fin.ext (by show p.1.val = (finProdFinEquiv p).val / 64; omega)
  · exact Fin.ext (by show p.2.val = (finProdFinEquiv p).val % 64; omega)

/-- The Euclidean norm of the whole normalized matrix of batch `b`, floored. -/
theorem fullNorm_eq (b : Fin 64) :
    val_main_v45 (F := Ideal) x0 x1 x2 x5 x6 (ix2 b (0 : Fin 1))
      = fullNorm (batchOf x0 b) (effOf x1 x2 x5) (centresOf x6) := by
  rw [val_main_v45_apply, val_main_v43_apply, val_main_v42_apply, val_main_v41_apply, val_main_cst_6_apply,
    Ideal.ofBits_def, Ideal.ofBits_zero_f32, zero_add, val_main_v44_apply, val_main_cst_7_apply]
  have hs : ∀ j : Fin 32768,
      val_main_v40 (F := Ideal) x0 x1 x2 x5 x6 (idx_main_v41 (idx_main_v42 (ix2 b (0 : Fin 1))) j)
        = intra (batchOf x0 b) (effOf x1 x2 x5) (centresOf x6) ⟨j.val / 64, by omega⟩ ⟨j.val % 64, by omega⟩
          * intra (batchOf x0 b) (effOf x1 x2 x5) (centresOf x6) ⟨j.val / 64, by omega⟩ ⟨j.val % 64, by omega⟩ :=
    fun j => by
      have e : idx_main_v41 (idx_main_v42 (ix2 b (0 : Fin 1))) j = ix2 b j := funext fun a => Fin.ext (by
        match a with
        | ⟨0, _⟩ => rfl
        | ⟨1, _⟩ => rfl)
      rw [e, val_main_v40_apply, flat_eq]
      rfl
  simp only [hs, Ideal.maximumf_def, Ideal.hostUnary_sqrt_def, Ideal.ofBits_def]
  rw [sum_flat (fun d k => intra (batchOf x0 b) (effOf x1 x2 x5) (centresOf x6) d k
    * intra (batchOf x0 b) (effOf x1 x2 x5) (centresOf x6) d k)]
  rfl

/-- The reference's last stage is the target array of its arguments. -/
theorem ref_eq (x0 : FVec Ideal S64x1024x512 .f32) (x1 : FVec Ideal S512x80 .f32) (x2 x5 : FVec Ideal S80 .f32)
    (x6 : FVec Ideal S1x512x64 .f32) :
    val_main_v47 (F := Ideal) x0 x1 x2 x5 x6 = result x0 x1 x2 x5 x6 := by
  funext i
  obtain ⟨b, j, rfl⟩ : ∃ (b : Fin 64) (j : Fin 32768), i = ix2 b j := ⟨i 0, i 1, eq_ix2 i⟩
  rw [val_main_v47_apply, val_main_v46_apply]
  have e : idx_main_v46 (ix2 b j) = ix2 b (0 : Fin 1) := funext fun a => Fin.ext (by
    match a with
    | ⟨0, _⟩ => rfl
    | ⟨1, _⟩ => rfl)
  rw [e, fullNorm_eq, flat_eq]
  simp only [Ideal.hostDivf_def]
  rfl

end Cert.RefValue

end
-- ==== Proof.lean ====
/-
  NetVLAD aggregation: a kernel over the 64 batches against the plain array program, equal over the extended reals.

  Both programs scale the cluster matrix column by column (weight over the square root of variance plus a small word)
  and keep its first 64 columns. For each batch the descriptors' logits against those columns are turned into a
  softmax over the 64 clusters; the residual matrix `∑ₙ x(n, d) · a(n, k) − (∑ₙ a(n, k)) · c(d, k)` is divided column by
  column by its floored Euclidean norm and then as a whole by its floored Euclidean norm. The kernel does this for one
  batch per grid point on a `512 × 64` block; the reference does it for all batches at once on flattened rows, computes
  all 80 logit columns before dropping the last 16, takes one more maximum with the starting word of the row maximum, and
  sums the final squares along the flattened `32768` axis where the kernel sums over the two axes of its block. None of
  these differences changes a value on the extended reals: a column of a matrix product is the product with that column,
  a maximum with its own starting word is itself, and a finite sum may be taken in any order. No finiteness of the inputs
  is used.

  Proof/VladSpec.lean states the per-batch mathematics on plain index functions and Proof/Target.lean the result array;
  Proof/KernelBlock.lean shows one grid point stores the per-batch result, Proof/KernelArray.lean carries that through the
  blocks, the host operations and the run; Proof/RefValue.lean shows the reference's last operation is the same array.
  The three frames are the generated ones (the reference's is its run with the result dropped); the idealization rewrote
  nothing, so there is nothing to preserve.
-/
import proofs.«177322_j36215164240269_1_alg».proof.Defs
import proofs.«177322_j36215164240269_1_alg».proof.Proof.Gen.Kernel
import proofs.«177322_j36215164240269_1_alg».proof.Proof.Gen.Kernel.Skeleton
import proofs.«177322_j36215164240269_1_alg».proof.Proof.Gen.Kernel.Launch
import proofs.«177322_j36215164240269_1_alg».proof.Proof.Gen.Kernel.Points
import proofs.«177322_j36215164240269_1_alg».proof.Proof.Gen.Kernel.Frame
import proofs.«177322_j36215164240269_1_alg».proof.Proof.Gen.KernelIdeal
import proofs.«177322_j36215164240269_1_alg».proof.Proof.Gen.KernelIdeal.Skeleton
import proofs.«177322_j36215164240269_1_alg».proof.Proof.Gen.KernelIdeal.Launch
import proofs.«177322_j36215164240269_1_alg».proof.Proof.Gen.KernelIdeal.Points
import proofs.«177322_j36215164240269_1_alg».proof.Proof.Gen.KernelIdeal.Frame
import proofs.«177322_j36215164240269_1_alg».proof.Proof.Gen.ReferenceIdeal
import proofs.«177322_j36215164240269_1_alg».proof.Proof.Gen.ReferenceIdeal.Run
import proofs.«177322_j36215164240269_1_alg».proof.Proof.Gen.ReferenceIdeal.Read
import proofs.«177322_j36215164240269_1_alg».proof.Proof.Gen.Pre_finite_inputs
import proofs.«177322_j36215164240269_1_alg».proof.Proof.KernelArray
import proofs.«177322_j36215164240269_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the target array of their (agreeing) arguments. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.RefValue.ref_eq, (hagree c).1, (hagree c).2.1, (hagree c).2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
